-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x32 : Shape := ⟨4, ![4, 64, 32, 32]⟩
abbrev S64x64x3x3 : Shape := ⟨4, ![64, 64, 3, 3]⟩
abbrev S_ : Shape := ⟨0, ![]⟩

class Facts : Prop where
  bcast_S_S4x64x32x32 : S_.BroadcastsInDim S4x64x32x32 (![] : Fin 0 → Fin S4x64x32x32.rank)
  reducesTo_S4x64x32x32_S_d0_1_2_3 : S4x64x32x32.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S4x64x32x32 .f32) (main_arg1 : FVec F S64x64x3x3 .f32) : IVec S_ 1 :=
  let main_v0 : FVec F S4x64x32x32 .f32 := Host.absf main_arg0
  let main_cst : FVec F S_ .f32 := constant S_ .f32 0x7F800000#32
  let main_v1 : FVec F S4x64x32x32 .f32 := broadcastInDim S4x64x32x32 ![] bcast_S_S4x64x32x32 main_cst
  let main_v2 : IVec S4x64x32x32 1 := cmpf .olt main_v0 main_v1
  let main_c : IVec S_ 1 := constantI S_ 1 1#1
  let main_v3 : IVec S_ 1 := (fun x v => Host.reduce IntOp.andi x v reducesTo_S4x64x32x32_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S4x64x32x32 : Shape := ⟨4, ![4, 64, 32, 32]⟩
abbrev S64x64x3x3 : Shape := ⟨4, ![64, 64, 3, 3]⟩
abbrev S_ : Shape := ⟨0, ![]⟩
abbrev S4x64x34x34 : Shape := ⟨4, ![4, 64, 34, 34]⟩
abbrev S4x64x1x32x32 : Shape := ⟨5, ![4, 64, 1, 32, 32]⟩
abbrev S4x64x9x32x32 : Shape := ⟨5, ![4, 64, 9, 32, 32]⟩
abbrev S4x576x1024 : Shape := ⟨3, ![4, 576, 1024]⟩
abbrev S64x576 : Shape := ⟨2, ![64, 576]⟩
abbrev S4x64x1024 : Shape := ⟨3, ![4, 64, 1024]⟩
abbrev S1x576x128 : Shape := ⟨3, ![1, 576, 128]⟩
abbrev S16x576 : Shape := ⟨2, ![16, 576]⟩
abbrev S1x16x128 : Shape := ⟨3, ![1, 16, 128]⟩
abbrev S576x128 : Shape := ⟨2, ![576, 128]⟩
abbrev S16x576x1 : Shape := ⟨3, ![16, 576, 1]⟩
abbrev S16x576x128 : Shape := ⟨3, ![16, 576, 128]⟩
abbrev S16x128 : Shape := ⟨2, ![16, 128]⟩

abbrev nBuf : Space → Nat
  | .hbm => 28
  | .vmem => 6
  | .smem => 0
  | _ => 0

abbrev bufTy : (tb : Table) → Fin (tcTables nBuf tb) → BufTy
  | .hbm, ⟨0, _⟩ => ⟨S4x64x32x32, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S4x64x34x34, .f32⟩
  | .hbm, ⟨5, _⟩ => ⟨S4x64x32x32, .f32⟩
  | .hbm, ⟨6, _⟩ => ⟨S4x64x32x32, .f32⟩
  | .hbm, ⟨7, _⟩ => ⟨S4x64x32x32, .f32⟩
  | .hbm, ⟨8, _⟩ => ⟨S4x64x32x32, .f32⟩
  | .hbm, ⟨9, _⟩ => ⟨S4x64x32x32, .f32⟩
  | .hbm, ⟨10, _⟩ => ⟨S4x64x32x32, .f32⟩
  | .hbm, ⟨11, _⟩ => ⟨S4x64x32x32, .f32⟩
  | .hbm, ⟨12, _⟩ => ⟨S4x64x32x32, .f32⟩
  | .hbm, ⟨13, _⟩ => ⟨S4x64x32x32, .f32⟩
  | .hbm, ⟨14, _⟩ => ⟨S4x64x1x32x32, .f32⟩
  | .hbm, ⟨15, _⟩ => ⟨S4x64x1x32x32, .f32⟩
  | .hbm, ⟨16, _⟩ => ⟨S4x64x1x32x32, .f32⟩
  | .hbm, ⟨17, _⟩ => ⟨S4x64x1x32x32, .f32⟩
  | .hbm, ⟨18, _⟩ => ⟨S4x64x1x32x32, .f32⟩
  | .hbm, ⟨19, _⟩ => ⟨S4x64x1x32x32, .f32⟩
  | .hbm, ⟨20, _⟩ => ⟨S4x64x1x32x32, .f32⟩
  | .hbm, ⟨21, _⟩ => ⟨S4x64x1x32x32, .f32⟩
  | .hbm, ⟨22, _⟩ => ⟨S4x64x1x32x32, .f32⟩
  | .hbm, ⟨23, _⟩ => ⟨S4x64x9x32x32, .f32⟩
  | .hbm, ⟨24, _⟩ => ⟨S4x576x1024, .f32⟩
  | .hbm, ⟨25, _⟩ => ⟨S64x576, .f32⟩
  | .hbm, ⟨26, _⟩ => ⟨S4x64x1024, .f32⟩
  | .hbm, ⟨27, _⟩ => ⟨S4x64x32x32, .f32⟩
  | .local _ .vmem, ⟨0, _⟩ => ⟨S1x576x128, .f32⟩
  | .local _ .vmem, ⟨1, _⟩ => ⟨S1x576x128, .f32⟩
  | .local _ .vmem, ⟨2, _⟩ => ⟨S16x576, .f32⟩
  | .local _ .vmem, ⟨3, _⟩ => ⟨S16x576, .f32⟩
  | .local _ .vmem, ⟨4, _⟩ => ⟨S1x16x128, .f32⟩
  | .local _ .vmem, ⟨5, _⟩ => ⟨S1x16x128, .f32⟩
  | _, _ => ⟨S4x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x576x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  pads_S4x64x32x32_S4x64x34x34_000_000_110_110 : S4x64x32x32.Pads (![0, 0, 1, 1] : Fin 4 → Nat) ![0, 0, 1, 1] ![0, 0, 0, 0] S4x64x34x34
  h_S_ : 0 < S_.numel
  slices_S4x64x34x34_S4x64x32x32_0_0_0_0 : S4x64x34x34.Slices ![0, 0, 0, 0] S4x64x32x32
  slices_S4x64x34x34_S4x64x32x32_0_0_0_1 : S4x64x34x34.Slices ![0, 0, 0, 1] S4x64x32x32
  slices_S4x64x34x34_S4x64x32x32_0_0_0_2 : S4x64x34x34.Slices ![0, 0, 0, 2] S4x64x32x32
  slices_S4x64x34x34_S4x64x32x32_0_0_1_0 : S4x64x34x34.Slices ![0, 0, 1, 0] S4x64x32x32
  slices_S4x64x34x34_S4x64x32x32_0_0_1_1 : S4x64x34x34.Slices ![0, 0, 1, 1] S4x64x32x32
  slices_S4x64x34x34_S4x64x32x32_0_0_1_2 : S4x64x34x34.Slices ![0, 0, 1, 2] S4x64x32x32
  slices_S4x64x34x34_S4x64x32x32_0_0_2_0 : S4x64x34x34.Slices ![0, 0, 2, 0] S4x64x32x32
  slices_S4x64x34x34_S4x64x32x32_0_0_2_1 : S4x64x34x34.Slices ![0, 0, 2, 1] S4x64x32x32
  slices_S4x64x34x34_S4x64x32x32_0_0_2_2 : S4x64x34x34.Slices ![0, 0, 2, 2] S4x64x32x32
  bcast_S4x64x32x32_S4x64x1x32x32_0_1_3_4 : S4x64x32x32.BroadcastsInDim S4x64x1x32x32 (![0, 1, 3, 4] : Fin 4 → Fin S4x64x1x32x32.rank)
  concatenates_S4x64x1x32x32_S4x64x1x32x32_S4x64x1x32x32_S4x64x1x32x32_S4x64x1x32x32_S4x64x1x32x32_S4x64x1x32x32_S4x64x1x32x32_S4x64x1x32x32_S4x64x9x32x32_d2 : Shape.Concatenates [S4x64x1x32x32, S4x64x1x32x32, S4x64x1x32x32, S4x64x1x32x32, S4x64x1x32x32, S4x64x1x32x32, S4x64x1x32x32, S4x64x1x32x32, S4x64x1x32x32] S4x64x9x32x32 2
  shapeCasts_S4x64x9x32x32_S4x576x1024 : S4x64x9x32x32.ShapeCasts S4x576x1024
  shapeCasts_S64x64x3x3_S64x576 : S64x64x3x3.ShapeCasts S64x576
  inb_S1x576x128_S1x576x128_0_0_0 : ∀ a, (![0, 0, 0] : Fin 3 → Nat) a + S1x576x128.size a ≤ S1x576x128.size a
  h_S1x576x128 : 0 < S1x576x128.numel
  shapeCasts_S1x576x128_S576x128 : S1x576x128.ShapeCasts S576x128
  inb_S16x576_S16x576_0_0 : ∀ a, (![0, 0] : Fin 2 → Nat) a + S16x576.size a ≤ S16x576.size a
  h_S16x576 : 0 < S16x576.numel
  shapeCasts_S16x576_S16x576 : S16x576.ShapeCasts S16x576
  shapeCasts_S16x576_S16x576x1 : S16x576.ShapeCasts S16x576x1
  shapeCasts_S576x128_S1x576x128 : S576x128.ShapeCasts S1x576x128
  broadcasts_S16x576x1_S16x576x128 : S16x576x1.Broadcasts S16x576x128
  broadcasts_S1x576x128_S16x576x128 : S1x576x128.Broadcasts S16x576x128
  reduces_S16x576x128_S16x128 : S16x576x128.Reduces [1] S16x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  shapeCasts_S4x64x1024_S4x64x32x32 : S4x64x1024.ShapeCasts S4x64x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x576x128.size a ≤ S4x576x1024.size a
  hwx0_0 : ∀ i : grid0.Coords, EltTy.bits .f32 = 32 ∨ (Rect.block (s := S4x576x1024) S1x576x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x576.size a ≤ S64x576.size a
  hwx0_1 : ∀ i : grid0.Coords, EltTy.bits .f32 = 32 ∨ (Rect.block (s := S64x576) S16x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S4x64x1024.size a
  hwx0_2 : ∀ i : grid0.Coords, EltTy.bits .f32 = 32 ∨ (Rect.block (s := S4x64x1024) S1x16x128.size (cc0_transform_2 i) (hinb0_2 i)).WholeWords (EltTy.packing .f32)

variable [Facts₀]

abbrev win0_0 : Pipeline.Window sig grid0 :=
  Pipeline.Window.ofSpec (Memref.whole main_v20) S1x576x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S16x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x32x32 : Shape := ⟨4, ![4, 64, 32, 32]⟩
abbrev S64x64x3x3 : Shape := ⟨4, ![64, 64, 3, 3]⟩
abbrev S_ : Shape := ⟨0, ![]⟩
abbrev S4x64x34x34 : Shape := ⟨4, ![4, 64, 34, 34]⟩
abbrev S4x64x1x32x32 : Shape := ⟨5, ![4, 64, 1, 32, 32]⟩
abbrev S4x64x9x32x32 : Shape := ⟨5, ![4, 64, 9, 32, 32]⟩
abbrev S4x576x1024 : Shape := ⟨3, ![4, 576, 1024]⟩
abbrev S64x576 : Shape := ⟨2, ![64, 576]⟩
abbrev S1x64x576x1 : Shape := ⟨4, ![1, 64, 576, 1]⟩
abbrev S4x1x576x1024 : Shape := ⟨4, ![4, 1, 576, 1024]⟩
abbrev S4x64x576x1024 : Shape := ⟨4, ![4, 64, 576, 1024]⟩
abbrev S4x64x1024 : Shape := ⟨3, ![4, 64, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x64x32x32, .f32⟩
  | .hbm, ⟨1, _⟩ => ⟨S64x64x3x3, .f32⟩
  | .hbm, ⟨2, _⟩ => ⟨S_, .i32⟩
  | .hbm, ⟨3, _⟩ => ⟨S_, .f32⟩
  | .hbm, ⟨4, _⟩ => ⟨S4x64x34x34, .f32⟩
  | .hbm, ⟨5, _⟩ => ⟨S4x64x32x32, .f32⟩
  | .hbm, ⟨6, _⟩ => ⟨S4x64x32x32, .f32⟩
  | .hbm, ⟨7, _⟩ => ⟨S4x64x32x32, .f32⟩
  | .hbm, ⟨8, _⟩ => ⟨S4x64x32x32, .f32⟩
  | .hbm, ⟨9, _⟩ => ⟨S4x64x32x32, .f32⟩
  | .hbm, ⟨10, _⟩ => ⟨S4x64x32x32, .f32⟩
  | .hbm, ⟨11, _⟩ => ⟨S4x64x32x32, .f32⟩
  | .hbm, ⟨12, _⟩ => ⟨S4x64x32x32, .f32⟩
  | .hbm, ⟨13, _⟩ => ⟨S4x64x32x32, .f32⟩
  | .hbm, ⟨14, _⟩ => ⟨S4x64x1x32x32, .f32⟩
  | .hbm, ⟨15, _⟩ => ⟨S4x64x1x32x32, .f32⟩
  | .hbm, ⟨16, _⟩ => ⟨S4x64x1x32x32, .f32⟩
  | .hbm, ⟨17, _⟩ => ⟨S4x64x1x32x32, .f32⟩
  | .hbm, ⟨18, _⟩ => ⟨S4x64x1x32x32, .f32⟩
  | .hbm, ⟨19, _⟩ => ⟨S4x64x1x32x32, .f32⟩
  | .hbm, ⟨20, _⟩ => ⟨S4x64x1x32x32, .f32⟩
  | .hbm, ⟨21, _⟩ => ⟨S4x64x1x32x32, .f32⟩
  | .hbm, ⟨22, _⟩ => ⟨S4x64x1x32x32, .f32⟩
  | .hbm, ⟨23, _⟩ => ⟨S4x64x9x32x32, .f32⟩
  | .hbm, ⟨24, _⟩ => ⟨S4x576x1024, .f32⟩
  | .hbm, ⟨25, _⟩ => ⟨S64x576, .f32⟩
  | .hbm, ⟨26, _⟩ => ⟨S1x64x576x1, .f32⟩
  | .hbm, ⟨27, _⟩ => ⟨S4x1x576x1024, .f32⟩
  | .hbm, ⟨28, _⟩ => ⟨S4x64x576x1024, .f32⟩
  | .hbm, ⟨29, _⟩ => ⟨S4x64x576x1024, .f32⟩
  | .hbm, ⟨30, _⟩ => ⟨S4x64x576x1024, .f32⟩
  | .hbm, ⟨31, _⟩ => ⟨S4x64x576x1024, .f32⟩
  | .hbm, ⟨32, _⟩ => ⟨S_, .f32⟩
  | .hbm, ⟨33, _⟩ => ⟨S4x64x1024, .f32⟩
  | .hbm, ⟨34, _⟩ => ⟨S4x64x1024, .f32⟩
  | .hbm, ⟨35, _⟩ => ⟨S4x64x32x32, .f32⟩
  | _, _ => ⟨S4x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S4x64x32x32_S4x64x34x34_000_000_110_110 : S4x64x32x32.Pads (![0, 0, 1, 1] : Fin 4 → Nat) ![0, 0, 1, 1] ![0, 0, 0, 0] S4x64x34x34
  h_S_ : 0 < S_.numel
  slices_S4x64x34x34_S4x64x32x32_0_0_0_0 : S4x64x34x34.Slices ![0, 0, 0, 0] S4x64x32x32
  slices_S4x64x34x34_S4x64x32x32_0_0_0_1 : S4x64x34x34.Slices ![0, 0, 0, 1] S4x64x32x32
  slices_S4x64x34x34_S4x64x32x32_0_0_0_2 : S4x64x34x34.Slices ![0, 0, 0, 2] S4x64x32x32
  slices_S4x64x34x34_S4x64x32x32_0_0_1_0 : S4x64x34x34.Slices ![0, 0, 1, 0] S4x64x32x32
  slices_S4x64x34x34_S4x64x32x32_0_0_1_1 : S4x64x34x34.Slices ![0, 0, 1, 1] S4x64x32x32
  slices_S4x64x34x34_S4x64x32x32_0_0_1_2 : S4x64x34x34.Slices ![0, 0, 1, 2] S4x64x32x32
  slices_S4x64x34x34_S4x64x32x32_0_0_2_0 : S4x64x34x34.Slices ![0, 0, 2, 0] S4x64x32x32
  slices_S4x64x34x34_S4x64x32x32_0_0_2_1 : S4x64x34x34.Slices ![0, 0, 2, 1] S4x64x32x32
  slices_S4x64x34x34_S4x64x32x32_0_0_2_2 : S4x64x34x34.Slices ![0, 0, 2, 2] S4x64x32x32
  bcast_S4x64x32x32_S4x64x1x32x32_0_1_3_4 : S4x64x32x32.BroadcastsInDim S4x64x1x32x32 (![0, 1, 3, 4] : Fin 4 → Fin S4x64x1x32x32.rank)
  concatenates_S4x64x1x32x32_S4x64x1x32x32_S4x64x1x32x32_S4x64x1x32x32_S4x64x1x32x32_S4x64x1x32x32_S4x64x1x32x32_S4x64x1x32x32_S4x64x1x32x32_S4x64x9x32x32_d2 : Shape.Concatenates [S4x64x1x32x32, S4x64x1x32x32, S4x64x1x32x32, S4x64x1x32x32, S4x64x1x32x32, S4x64x1x32x32, S4x64x1x32x32, S4x64x1x32x32, S4x64x1x32x32] S4x64x9x32x32 2
  shapeCasts_S4x64x9x32x32_S4x576x1024 : S4x64x9x32x32.ShapeCasts S4x576x1024
  shapeCasts_S64x64x3x3_S64x576 : S64x64x3x3.ShapeCasts S64x576
  bcast_S64x576_S1x64x576x1_1_2 : S64x576.BroadcastsInDim S1x64x576x1 (![1, 2] : Fin 2 → Fin S1x64x576x1.rank)
  bcast_S4x576x1024_S4x1x576x1024_0_2_3 : S4x576x1024.BroadcastsInDim S4x1x576x1024 (![0, 2, 3] : Fin 3 → Fin S4x1x576x1024.rank)
  bcast_S1x64x576x1_S4x64x576x1024_0_1_2_3 : S1x64x576x1.BroadcastsInDim S4x64x576x1024 (![0, 1, 2, 3] : Fin 4 → Fin S4x64x576x1024.rank)
  bcast_S4x1x576x1024_S4x64x576x1024_0_1_2_3 : S4x1x576x1024.BroadcastsInDim S4x64x576x1024 (![0, 1, 2, 3] : Fin 4 → Fin S4x64x576x1024.rank)
  reducesTo_S4x64x576x1024_S4x64x1024_d2 : S4x64x576x1024.ReducesTo [2] S4x64x1024
  shapeCasts_S4x64x1024_S4x64x32x32 : S4x64x1024.ShapeCasts S4x64x32x32

variable [Facts₀]

class Facts : Prop extends Facts₀ where

variable [Facts]
-- ==== Proof.FrameBits.lean ====
/-
  The frame of the L1-distance program (this program's text is the same at the word level and idealized): `out[n, o, l] = -∑ₖ |W[o, k] - X[n, k, l]|` with `X` the 3×3 patches of the
  zero-padded image laid out as [4, 576, 1024] and `W` the filter laid out as [64, 576].
  @main is: the host lines that build `X` and `W` (a constant, the padding, nine shifted slices, their stack along a new
  axis, two reshapes), ONE pipelined region over the grid 4 × 4 × 8 — point (n, a, b) is handed the columns
  `X[n, :, 128 b .. 128 b + 127]` and the rows `W[16 a .. 16 a + 15, :]` and writes back the block
  `out[n, 16 a .. 16 a + 15, 128 b .. 128 b + 127]` — and one reshape of `out` to [4, 64, 32, 32].
  Here: the contents of every buffer when the region is entered (`V`: the host lines' composed result); what one call of the
  body leaves in the output block as a function of the two input blocks (`outBlk`: one store covering the block); the
  body's triple; the pipeline's proof data (each input's staging buffer holds its block at every point, whether or not
  that point fetches it: the filter rows are fetched only when `b = 0`); the run of the whole program, whose final state
  has the output array assembled from the blocks and every other buffer at what the host lines leave; and from it the
  frame: the program terminates, faults nowhere, and the two argument arrays end as they began (no host line and no
  write-back touches them). Everything is stated at any float instance.
-/
import proofs.«150992_j36910948942379_1_alg».proof.Proof.Gen.Kernel.Launch
import proofs.«150992_j36910948942379_1_alg».proof.Proof.Gen.Kernel.Skeleton
import proofs.«150992_j36910948942379_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.L1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines that build the
    patch array and the filter matrix. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the closing reshape: it reduces to the region continued by
    that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches only the output array and its own result: buffers the region does not keep. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the three arrays the region stages (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the image argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the filter argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch window's current staging buffer holds the point's block of columns at every point. -/
theorem beforeX_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The filter window's current staging buffer holds the point's block of rows at every point: where the point does not
    fetch it the block index has not moved since the last fetch. -/
theorem beforeW_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What one call of the body leaves in the output block -/

abbrev rX : Rect S1x576x128 := Rect.unit (s := S1x576x128) ![0, 0, 0] S1x576x128.size inb_S1x576x128_S1x576x128_0_0_0
abbrev rW : Rect S16x576 := Rect.unit (s := S16x576) ![0, 0] S16x576.size inb_S16x576_S16x576_0_0
abbrev rO : Rect S1x16x128 := Rect.unit (s := S1x16x128) ![0, 0, 0] S1x16x128.size inb_S1x16x128_S1x16x128_0_0_0

/-- The output block after the body, from the two input blocks: the body's one store, which covers the block, of the
    body's arithmetic on the two blocks read whole. -/
def outBlk (x : Vec F S1x576x128 .f32) (w : Vec F S16x576 .f32) : Vec F S1x16x128 .f32 :=
  View.canon [⟨rO, k0_pay1 (View.ld x rX) (View.ld w rW)⟩]

/-- The one store is of the whole block. -/
theorem cover_out (p0 : Vec F S1x16x128 .f32) (y : S1x16x128.Idx) :
    ∃ pc ∈ ([⟨rO, p0⟩] : List (View.Piece (Elt F) S1x16x128 .f32)), y ∈ pc.1.set :=
  View.cover_of_tiled [⟨rO, p0⟩] S1x16x128.size (by rfl) y

/-! ## The body's triple -/

set_option maxHeartbeats 1000000 in
/-- The body on whole staging buffers, the inputs' at contents `x` and `w` and the output's at anything, runs to a state
    with the inputs' as they were and the output's at `outBlk x w`: it reads the three buffers whole (what it reads of the
    output buffer it does not use) and stores the output block whole. -/
theorem sound_kernel (c : Dev nD) (E : Set ℕ) (i : grid0.Coords) (arg3 : Memref sig .tc .vmem S1x576x128 .f32) (harg3 : arg3.IsWhole)
    (arg4 : Memref sig .tc .vmem S16x576 .f32) (harg4 : arg4.IsWhole) (arg5 : Memref sig .tc .vmem S1x16x128 .f32) (harg5 : arg5.IsWhole)
    (x : Vec F S1x576x128 .f32) (w : Vec F S16x576 .f32) (K : PUnit → sProp 𝕄) :
    iprop(owns (c : Thread nD τ) arg3 fullShare x ∗ owns (c : Thread nD τ) arg4 fullShare w ∗ (∃ d, owns (c : Thread nD τ) arg5 fullShare d)
        ∗ (iprop(owns (c : Thread nD τ) arg3 fullShare x ∗ owns (c : Thread nD τ) arg4 fullShare w ∗ owns (c : Thread nD τ) arg5 fullShare (outBlk x w)) -∗ K ⟨⟩))
      ⊢ wp frame (wpE (defs₀ (F := F)) Variants.none c none) E (cc0__l1_kernel i arg3 harg3 arg4 harg4 arg5 harg5) K := by
  simp only [cc0__l1_kernel_eq_skeleton]; unfold cc0__l1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer still at its block and the output's at `outBlk` of the two input blocks; nothing kept between points
    beyond the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem afterX (c : Dev nD) (t : Fin cfg0.N) : (dats m 0 c).after 0 t = iblk m c 0 t := by dsimp only [dats]
theorem afterW (c : Dev nD) (t : Fin cfg0.N) : (dats m 0 c).after 1 t = iblk m c 1 t := by dsimp only [dats]
theorem afterO (c : Dev nD) (t : Fin cfg0.N) : (dats m 0 c).after 2 t = outBlk (iblk m c 0 t) (iblk m c 1 t) := by dsimp only [dats]

theorem beforeX (c : Dev nD) (t : Fin cfg0.N) (d) : (dats m 0 c).before 0 t d = iblk m c 0 t :=
  beforeX_of m (dats m 0 c) (A_eq m c 0) (afterX m c) t d
theorem beforeW (c : Dev nD) (t : Fin cfg0.N) (d) : (dats m 0 c).before 1 t d = iblk m c 1 t :=
  beforeW_of m (dats m 0 c) (A_eq m c 1) (afterW m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeX, beforeW]
  rw [show (dats m 0 c).Φ t.succ = (dats m 0 c).Φ t.castSucc from rfl,
    show (dats m 0 c).owesAt () t.succ = (dats m 0 c).owesAt () t.castSucc from rfl,
    afterX, afterW, afterO]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

/-- What core `c`'s buffers hold at the end: the closing reshape applied to the region's exit contents — the three staged
    arrays at what the write-backs assembled, every other buffer as the region found it. -/
abbrev Vend (c : Dev nD) (b : Ref sig .tc) : Buf (Elt F) ((c.tc : Thread nD τ).loc b) :=
  Pipeline.afterTail₀ cfgs (dats m) 0 (V0 m) [hostOps1] c b

set_option backward.isDefEq.respectTransparency.types false in
/-- From any memory with zero counters every weakly fair execution of @main terminates, and every final state has the three
    staged arrays at what the proof data assemble and every other unscoped buffer at `Vend`. -/
theorem run_main : θ_run defs (onTc (τ := τ) (main (F := F))) (s₀ m ρ) (Pipeline.FramePost cfgs (dats m) 0 (Vend m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The frame -/

/-- A buffer that is none of the staged arrays and that the closing reshape does not write ends as the region found it. -/
theorem Vend_of_kept (c : Dev nD) (b : Ref sig .tc) (harr : ∀ w, Pipeline.arrRef spec0 w ≠ b) (hb : b ≠ main_v23) :
    Vend m c b = V m c b := by
  unfold Vend Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hb))]
  exact Pipeline.withArrays_of_ne _ c _ _ b harr

/-- THE FRAME, at any float instance: @main terminates without a fault and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((Vend_of_kept m c main_arg0 (by decide) (by decide)).trans (V_main_arg0 m c)),
     ((h c).2 main_arg1 (Pipeline.mem_restRefs_of main_arg1 (by decide) (by decide))).trans
        ((Vend_of_kept m c main_arg1 (by decide) (by decide)).trans (V_main_arg1 m c))⟩) (run_main m ρ)

end Cert.Kernel.L1

end
-- ==== Proof.FrameIdeal.lean ====
/-
  The frame of the L1-distance program (this program's text is the same at the word level and idealized): `out[n, o, l] = -∑ₖ |W[o, k] - X[n, k, l]|` with `X` the 3×3 patches of the
  zero-padded image laid out as [4, 576, 1024] and `W` the filter laid out as [64, 576].
  @main is: the host lines that build `X` and `W` (a constant, the padding, nine shifted slices, their stack along a new
  axis, two reshapes), ONE pipelined region over the grid 4 × 4 × 8 — point (n, a, b) is handed the columns
  `X[n, :, 128 b .. 128 b + 127]` and the rows `W[16 a .. 16 a + 15, :]` and writes back the block
  `out[n, 16 a .. 16 a + 15, 128 b .. 128 b + 127]` — and one reshape of `out` to [4, 64, 32, 32].
  Here: the contents of every buffer when the region is entered (`V`: the host lines' composed result); what one call of the
  body leaves in the output block as a function of the two input blocks (`outBlk`: one store covering the block); the
  body's triple; the pipeline's proof data (each input's staging buffer holds its block at every point, whether or not
  that point fetches it: the filter rows are fetched only when `b = 0`); the run of the whole program, whose final state
  has the output array assembled from the blocks and every other buffer at what the host lines leave; and from it the
  frame: the program terminates, faults nowhere, and the two argument arrays end as they began (no host line and no
  write-back touches them). Everything is stated at any float instance.
-/
import proofs.«150992_j36910948942379_1_alg».proof.Proof.Gen.KernelIdeal.Launch
import proofs.«150992_j36910948942379_1_alg».proof.Proof.Gen.KernelIdeal.Skeleton
import proofs.«150992_j36910948942379_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.L1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines that build the
    patch array and the filter matrix. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the closing reshape: it reduces to the region continued by
    that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches only the output array and its own result: buffers the region does not keep. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the three arrays the region stages (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the image argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- Nor the filter argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch window's current staging buffer holds the point's block of columns at every point. -/
theorem beforeX_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The filter window's current staging buffer holds the point's block of rows at every point: where the point does not
    fetch it the block index has not moved since the last fetch. -/
theorem beforeW_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What one call of the body leaves in the output block -/

abbrev rX : Rect S1x576x128 := Rect.unit (s := S1x576x128) ![0, 0, 0] S1x576x128.size inb_S1x576x128_S1x576x128_0_0_0
abbrev rW : Rect S16x576 := Rect.unit (s := S16x576) ![0, 0] S16x576.size inb_S16x576_S16x576_0_0
abbrev rO : Rect S1x16x128 := Rect.unit (s := S1x16x128) ![0, 0, 0] S1x16x128.size inb_S1x16x128_S1x16x128_0_0_0

/-- The output block after the body, from the two input blocks: the body's one store, which covers the block, of the
    body's arithmetic on the two blocks read whole. -/
def outBlk (x : Vec F S1x576x128 .f32) (w : Vec F S16x576 .f32) : Vec F S1x16x128 .f32 :=
  View.canon [⟨rO, k0_pay1 (View.ld x rX) (View.ld w rW)⟩]

/-- The one store is of the whole block. -/
theorem cover_out (p0 : Vec F S1x16x128 .f32) (y : S1x16x128.Idx) :
    ∃ pc ∈ ([⟨rO, p0⟩] : List (View.Piece (Elt F) S1x16x128 .f32)), y ∈ pc.1.set :=
  View.cover_of_tiled [⟨rO, p0⟩] S1x16x128.size (by rfl) y

/-! ## The body's triple -/

set_option maxHeartbeats 1000000 in
/-- The body on whole staging buffers, the inputs' at contents `x` and `w` and the output's at anything, runs to a state
    with the inputs' as they were and the output's at `outBlk x w`: it reads the three buffers whole (what it reads of the
    output buffer it does not use) and stores the output block whole. -/
theorem sound_kernel (c : Dev nD) (E : Set ℕ) (i : grid0.Coords) (arg3 : Memref sig .tc .vmem S1x576x128 .f32) (harg3 : arg3.IsWhole)
    (arg4 : Memref sig .tc .vmem S16x576 .f32) (harg4 : arg4.IsWhole) (arg5 : Memref sig .tc .vmem S1x16x128 .f32) (harg5 : arg5.IsWhole)
    (x : Vec F S1x576x128 .f32) (w : Vec F S16x576 .f32) (K : PUnit → sProp 𝕄) :
    iprop(owns (c : Thread nD τ) arg3 fullShare x ∗ owns (c : Thread nD τ) arg4 fullShare w ∗ (∃ d, owns (c : Thread nD τ) arg5 fullShare d)
        ∗ (iprop(owns (c : Thread nD τ) arg3 fullShare x ∗ owns (c : Thread nD τ) arg4 fullShare w ∗ owns (c : Thread nD τ) arg5 fullShare (outBlk x w)) -∗ K ⟨⟩))
      ⊢ wp frame (wpE (defs₀ (F := F)) Variants.none c none) E (cc0__l1_kernel i arg3 harg3 arg4 harg4 arg5 harg5) K := by
  simp only [cc0__l1_kernel_eq_skeleton]; unfold cc0__l1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer still at its block and the output's at `outBlk` of the two input blocks; nothing kept between points
    beyond the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem afterX (c : Dev nD) (t : Fin cfg0.N) : (dats m 0 c).after 0 t = iblk m c 0 t := by dsimp only [dats]
theorem afterW (c : Dev nD) (t : Fin cfg0.N) : (dats m 0 c).after 1 t = iblk m c 1 t := by dsimp only [dats]
theorem afterO (c : Dev nD) (t : Fin cfg0.N) : (dats m 0 c).after 2 t = outBlk (iblk m c 0 t) (iblk m c 1 t) := by dsimp only [dats]

theorem beforeX (c : Dev nD) (t : Fin cfg0.N) (d) : (dats m 0 c).before 0 t d = iblk m c 0 t :=
  beforeX_of m (dats m 0 c) (A_eq m c 0) (afterX m c) t d
theorem beforeW (c : Dev nD) (t : Fin cfg0.N) (d) : (dats m 0 c).before 1 t d = iblk m c 1 t :=
  beforeW_of m (dats m 0 c) (A_eq m c 1) (afterW m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [beforeX, beforeW]
  rw [show (dats m 0 c).Φ t.succ = (dats m 0 c).Φ t.castSucc from rfl,
    show (dats m 0 c).owesAt () t.succ = (dats m 0 c).owesAt () t.castSucc from rfl,
    afterX, afterW, afterO]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

/-- What core `c`'s buffers hold at the end: the closing reshape applied to the region's exit contents — the three staged
    arrays at what the write-backs assembled, every other buffer as the region found it. -/
abbrev Vend (c : Dev nD) (b : Ref sig .tc) : Buf (Elt F) ((c.tc : Thread nD τ).loc b) :=
  Pipeline.afterTail₀ cfgs (dats m) 0 (V0 m) [hostOps1] c b

set_option backward.isDefEq.respectTransparency.types false in
/-- From any memory with zero counters every weakly fair execution of @main terminates, and every final state has the three
    staged arrays at what the proof data assemble and every other unscoped buffer at `Vend`. -/
theorem run_main : θ_run defs (onTc (τ := τ) (main (F := F))) (s₀ m ρ) (Pipeline.FramePost cfgs (dats m) 0 (Vend m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-! ## The frame -/

/-- A buffer that is none of the staged arrays and that the closing reshape does not write ends as the region found it. -/
theorem Vend_of_kept (c : Dev nD) (b : Ref sig .tc) (harr : ∀ w, Pipeline.arrRef spec0 w ≠ b) (hb : b ≠ main_v23) :
    Vend m c b = V m c b := by
  unfold Vend Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hb))]
  exact Pipeline.withArrays_of_ne _ c _ _ b harr

/-- THE FRAME, at any float instance: @main terminates without a fault and leaves the two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans
        ((Vend_of_kept m c main_arg0 (by decide) (by decide)).trans (V_main_arg0 m c)),
     ((h c).2 main_arg1 (Pipeline.mem_restRefs_of main_arg1 (by decide) (by decide))).trans
        ((Vend_of_kept m c main_arg1 (by decide) (by decide)).trans (V_main_arg1 m c))⟩) (run_main m ρ)

end Cert.KernelIdeal.L1

end
-- ==== Proof.Spec.lean ====
/-
  The L1-distance "convolution" as one function of the patch array and the filter matrix:
  `out[n, o, l] = -∑ₖ |W[o, k] - X[n, k, l]|` for `X : [4, 576, 1024]`, `W : [64, 576]`, `out : [4, 64, 1024]`, on the extended
  reals. Both programs compute it: the kernel block by block (a lane sum over the 576 rows of a block, subtracted from
  zero), the reference on whole arrays (a host sum over axis 2 started from zero, then negated). The two laws that join
  them are `0 - s = -s` and `0 + s = s`, which hold for every extended real `s`, infinite ones included, so no
  finiteness of the inputs is used.
-/
import Idealize.ShloMosaic.PureOps.Ideal
import Idealize.ShloMosaic.PureOps.Ideal.Laws

noncomputable section

namespace Cert.L1Spec

open Idealize.ShloMosaic

abbrev SX : Shape := ⟨3, ![4, 576, 1024]⟩
abbrev SW : Shape := ⟨2, ![64, 576]⟩
abbrev SO : Shape := ⟨3, ![4, 64, 1024]⟩

/-- The entry `X[n, k, l]` that term `k` of `out[n, o, l]` reads. -/
abbrev xAt (i : SO.Idx) (k : Fin 576) : SX.Idx := fun a => match a with
  | ⟨0, _⟩ => ⟨(i 0).val, (i 0).isLt⟩
  | ⟨1, _⟩ => ⟨k.val, k.isLt⟩
  | ⟨2, _⟩ => ⟨(i 2).val, (i 2).isLt⟩

/-- The entry `W[o, k]` that term `k` of `out[n, o, l]` reads. -/
abbrev wAt (i : SO.Idx) (k : Fin 576) : SW.Idx := fun a => match a with
  | ⟨0, _⟩ => ⟨(i 1).val, (i 1).isLt⟩
  | ⟨1, _⟩ => ⟨k.val, k.isLt⟩

/-- `out[n, o, l] = -∑ₖ |W[o, k] - X[n, k, l]|`. -/
def l1neg (X : FVec Ideal SX .f32) (W : FVec Ideal SW .f32) : FVec Ideal SO .f32 :=
  fun i => -(∑ k : Fin 576, FloatOps.absf (FloatOps.subf (W (wAt i k)) (X (xAt i k))))

/-- Zero less a sum is the sum negated, for every extended real. -/
theorem zero_word_sub (s : EReal) : Ideal.ofBits .f32 0x00000000#32 - s = -s := by
  rw [Ideal.ofBits_zero_f32, zero_sub]

/-- A sum started from zero is the sum. -/
theorem zero_word_add (s : EReal) : Ideal.ofBits .f32 0x00000000#32 + s = s := by
  rw [Ideal.ofBits_zero_f32, zero_add]

end Cert.L1Spec

end
-- ==== Proof.KernelValue.lean ====
/-
  The value the idealized kernel program leaves in its output array, and in its result after the closing reshape.
  One call of the body, on the block `x = X[n, :, 128 b ..]` of patch columns and the block `w = W[16 a .., :]` of filter
  rows, stores at `(0, o, l)` the number `0 - ∑ₖ |w[o, k] - x[0, k, l]|`: the two blocks are broadcast against each other
  through a unit axis each, subtracted, their absolute values summed over the 576 rows, and the sum taken from zero
  (`pay_apply`). Zero less a sum is the sum negated, so what point `(n, a, b)` writes back is the block
  `[n, 16 a .. 16 a + 15, 128 b .. 128 b + 127]` of `l1neg X W` for the arrays `X`, `W` the region finds (`flushed_eq`,
  over `block_of_l1neg`, which is stated for ANY two arrays: a block's coordinate is the block index times the block size
  plus the coordinate inside the block, and the printed index maps are decided over the 128 grid points). The blocks tile the output array (`cover`: index `(n, o, l)` lies in
  the block of the point with indices `(n, o / 16, l / 128)`, which is point `32 n + 8 (o / 16) + l / 128`), so the array ends at `l1neg X W` (`final_out`), and the
  result buffer at its reshape to [4, 64, 32, 32] (`result_eq`).
-/
import proofs.«150992_j36910948942379_1_alg».proof.Proof.FrameIdeal
import proofs.«150992_j36910948942379_1_alg».proof.Proof.Spec
import Idealize.ShloMosaic.Lib.Pipeline.Value
import Idealize.ShloMosaic.Lib.StableHlo.Run
import Idealize.ShloMosaic.PureOps.Ideal.Laws

set_option maxRecDepth 16384

noncomputable section

namespace Cert.KernelIdeal.L1V

open Cert.KernelIdeal Cert.KernelIdeal.Gen Cert.KernelIdeal.L1 Cert.L1Spec
open Idealize.ShloMosaic Idealize.ShloMosaic.TcCoe Idealize.SL.Sem Idealize.ShloMosaic.StableHlo
open Idealize.ShloMosaic.Pipeline (Dat)

/-! ## The body's arithmetic at an index -/

/-- Row `o` and column `k` of the block of filter rows. -/
abbrev wB (y : S1x16x128.Idx) (k : Fin 576) : S16x576.Idx := fun a => match a with
  | ⟨0, _⟩ => ⟨(y 1).val, (y 1).isLt⟩
  | ⟨1, _⟩ => ⟨k.val, k.isLt⟩
abbrev xB (y : S1x16x128.Idx) (k : Fin 576) : S1x576x128.Idx := fun a => match a with
  | ⟨0, _⟩ => ⟨0, Nat.one_pos⟩
  | ⟨1, _⟩ => ⟨k.val, k.isLt⟩
  | ⟨2, _⟩ => ⟨(y 2).val, (y 2).isLt⟩
abbrev oB (y : S1x16x128.Idx) : S16x128.Idx := fun a => match a with
  | ⟨0, _⟩ => ⟨(y 1).val, (y 1).isLt⟩
  | ⟨1, _⟩ => ⟨(y 2).val, (y 2).isLt⟩

abbrev wCol (j : S16x576x128.Idx) : S16x576x1.Idx := fun a => match a with
  | ⟨0, _⟩ => ⟨(j 0).val, (j 0).isLt⟩
  | ⟨1, _⟩ => ⟨(j 1).val, (j 1).isLt⟩
  | ⟨2, _⟩ => ⟨0, Nat.one_pos⟩
abbrev wRow (j : S16x576x128.Idx) : S16x576.Idx := fun a => match a with
  | ⟨0, _⟩ => ⟨(j 0).val, (j 0).isLt⟩
  | ⟨1, _⟩ => ⟨(j 1).val, (j 1).isLt⟩
abbrev xRow (j : S16x576x128.Idx) : S1x576x128.Idx := fun a => match a with
  | ⟨0, _⟩ => ⟨0, Nat.one_pos⟩
  | ⟨1, _⟩ => ⟨(j 1).val, (j 1).isLt⟩
  | ⟨2, _⟩ => ⟨(j 2).val, (j 2).isLt⟩

theorem filter_bcast (w : FVec Ideal S16x576 .f32) (j : S16x576x128.Idx) :
    broadcastTo S16x576x128 (shapeCast S16x576x1 (shapeCast S16x576 w shapeCasts_S16x576_S16x576) shapeCasts_S16x576_S16x576x1) broadcasts_S16x576x1_S16x576x128 j
      = w (wRow j) := by
  rw [shapeCast_self]
  refine (broadcastTo_apply _ _ j (wCol j) (fun a => match a with
     | ⟨0, _⟩ => by show (j 0).val = if (16 : Nat) = 1 then 0 else (j 0).val; rw [if_neg (by decide)]
     | ⟨1, _⟩ => by show (j 1).val = if (576 : Nat) = 1 then 0 else (j 1).val; rw [if_neg (by decide)]
     | ⟨2, _⟩ => by show 0 = if (1 : Nat) = 1 then 0 else (j 2).val; rw [if_pos rfl])).trans ?_
  exact shapeCast_apply w shapeCasts_S16x576_S16x576x1 (wCol j) (wRow j) (by rw [Shape.rowMajor_val_two, Shape.rowMajor_val_three]; show (j 0).val * 576 + (j 1).val = ((j 0).val * 576 + (j 1).val) * 1 + 0; omega)

theorem patch_bcast (x : FVec Ideal S1x576x128 .f32) (j : S16x576x128.Idx) :
    broadcastTo S16x576x128 (shapeCast S1x576x128 (shapeCast S576x128 x shapeCasts_S1x576x128_S576x128) shapeCasts_S576x128_S1x576x128) broadcasts_S1x576x128_S16x576x128 j
      = x (xRow j) := by
  rw [shapeCast_shapeCast]
  exact broadcastTo_apply x broadcasts_S1x576x128_S16x576x128 j (xRow j) (fun a => match a with
     | ⟨0, _⟩ => by show 0 = if (1 : Nat) = 1 then 0 else (j 0).val; rw [if_pos rfl]
     | ⟨1, _⟩ => by show (j 1).val = if (576 : Nat) = 1 then 0 else (j 1).val; rw [if_neg (by decide)]
     | ⟨2, _⟩ => by show (j 2).val = if (128 : Nat) = 1 then 0 else (j 2).val; rw [if_neg (by decide)])

theorem pay_apply (x : FVec Ideal S1x576x128 .f32) (w : FVec Ideal S16x576 .f32) (y : S1x16x128.Idx) :
    k0_pay1 (F := Ideal) x w y = -(∑ k : Fin 576, FloatOps.absf (FloatOps.subf (w (wB y k)) (x (xB y k)))) := by
  unfold k0_pay1
  dsimp only
  refine (shapeCast_apply _ _ y (oB y) ?_).trans ?_
  · rw [Shape.rowMajor_val_two, Shape.rowMajor_val_three]
    have h0 : (y 0).val < 1 := (y 0).isLt
    show (y 1).val * 128 + (y 2).val = ((y 0).val * 16 + (y 1).val) * 128 + (y 2).val
    omega
  · refine (zero_word_sub _).trans (congrArg Neg.neg ?_)
    refine (Ideal.multiReduction_add_single _ _ _ _ _ (oB y)).trans ?_
    refine Finset.sum_congr rfl fun k _ => ?_
    refine congrArg FloatOps.absf (congrArg₂ FloatOps.subf ((filter_bcast w _).trans (congrArg w ?_)) ((patch_bcast x _).trans (congrArg x ?_)))
    · exact funext fun a => Fin.ext (by match a with | ⟨0, _⟩ => rfl | ⟨1, _⟩ => rfl)
    · exact funext fun a => Fin.ext (by match a with | ⟨0, _⟩ => rfl | ⟨1, _⟩ => rfl | ⟨2, _⟩ => rfl)

/-! ## From blocks to the array -/

variable (m : (ℓ : Loc nD τ sig) → Buf (Elt Ideal) ℓ) (ρ : Dev nD → PrngReg)

/-- The patch array and the filter matrix as the region finds them, and the point's blocks of them, at their literal types. -/
abbrev Xarr (c : Dev nD) : FVec Ideal S4x576x1024 .f32 := V m c main_v20
abbrev Warr (c : Dev nD) : FVec Ideal S64x576 .f32 := V m c main_v21
abbrev xblk (c : Dev nD) (t : Fin cfg0.N) : FVec Ideal S1x576x128 .f32 := iblk m c 0 t
abbrev wblk (c : Dev nD) (t : Fin cfg0.N) : FVec Ideal S16x576 .f32 := iblk m c 1 t

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the patch window moves with the output's image and column-block indices, the
    filter window with its row-block index; both stay at block 0 on the summed axis. -/
theorem idx_facts : ∀ t : Fin cfg0.N,
    win0_0.index t (0 : Fin 3) = win0_2.index t (0 : Fin 3)
    ∧ win0_0.index t (1 : Fin 3) = 0
    ∧ win0_0.index t (2 : Fin 3) = win0_2.index t (2 : Fin 3)
    ∧ win0_1.index t (0 : Fin 2) = win0_2.index t (1 : Fin 3)
    ∧ win0_1.index t (1 : Fin 2) = 0 :=
  (by decide +kernel : ∀ t : Fin grid0.N, _)

/-- The output window's block indices in closed form: point `t` is `(n, a, b) = (t / 32, t / 8 % 4, t % 8)`. -/
theorem idx_closed : ∀ t : Fin cfg0.N,
    win0_2.index t (0 : Fin 3) = t.val / 32
    ∧ win0_2.index t (1 : Fin 3) = t.val / 8 % 4
    ∧ win0_2.index t (2 : Fin 3) = t.val % 8 :=
  (by decide +kernel : ∀ t : Fin grid0.N, _)

/-- The blocks of ANY patch array `GX` and filter matrix `GW` at point `t`, put through the body's arithmetic at block
    index `j`, give `l1neg GX GW` at the array index of `j` in the point's output block: a block's coordinate is the block
    index times the block size plus the coordinate inside the block, on every axis of every window. -/
theorem block_of_l1neg (GX : FVec Ideal S4x576x1024 .f32) (GW : FVec Ideal S64x576 .f32) (t : Fin cfg0.N)
    (j : ((cfg0.win 2).xblock (grid0.coords t)).Idx) :
    -(∑ k : Fin 576, FloatOps.absf (FloatOps.subf
        ((((cfg0.win 1).blk t).view.read (Elt Ideal) GW : FVec Ideal S16x576 .f32) (wB j k))
        ((((cfg0.win 0).blk t).view.read (Elt Ideal) GX : FVec Ideal S1x576x128 .f32) (xB j k))))
      = l1neg GX GW (((cfg0.win 2).blk t).view.emb j) := by
  obtain ⟨e0, e1, e2, e3, e4⟩ := idx_facts t
  refine congrArg Neg.neg (Finset.sum_congr rfl fun k _ => congrArg FloatOps.absf (congrArg₂ FloatOps.subf ?_ ?_))
  · refine congrArg GW (funext fun a => Fin.ext ?_)
    match a with
    | ⟨0, _⟩ => show win0_1.index t (0 : Fin 2) * 16 + 1 * (j 1).val = win0_2.index t (1 : Fin 3) * 16 + 1 * (j 1).val; omega
    | ⟨1, _⟩ => show win0_1.index t (1 : Fin 2) * 576 + 1 * k.val = k.val; omega
  · refine congrArg GX (funext fun a => Fin.ext ?_)
    match a with
    | ⟨0, _⟩ => show win0_0.index t (0 : Fin 3) * 1 + 1 * 0 = win0_2.index t (0 : Fin 3) * 1 + 1 * (j 0).val; have h0 : (j 0).val < 1 := (j 0).isLt; omega
    | ⟨1, _⟩ => show win0_0.index t (1 : Fin 3) * 576 + 1 * k.val = k.val; omega
    | ⟨2, _⟩ => show win0_0.index t (2 : Fin 3) * 128 + 1 * (j 2).val = win0_2.index t (2 : Fin 3) * 128 + 1 * (j 2).val; omega

/-- What point `t` writes back is its block of `l1neg` of the two arrays the region finds. -/
theorem flushed_eq (c : Dev nD) (t : Fin cfg0.N) :
    (dats m 0 c).flushed 2 t = ((cfg0.win 2).blk t).view.read (Elt Ideal) (l1neg (Xarr m c) (Warr m c)) := by
  show (cfg0.win 2).cut (grid0.coords t) ((dats m 0 c).after 2 t) = _
  rw [afterO]
  unfold outBlk
  rw [View.canon_unit_zero hz3]
  simp only [View.ld_unit_zero (S := S1x576x128) hz3, View.ld_unit_zero (S := S16x576) hz2]
  funext j
  refine (pay_apply (xblk m c t) (wblk m c t) j).trans ?_
  have hx : xblk m c t = ((cfg0.win 0).blk t).view.read (Elt Ideal) (Xarr m c) := rfl
  have hw : wblk m c t = ((cfg0.win 1).blk t).view.read (Elt Ideal) (Warr m c) := rfl
  rw [hx, hw]
  exact block_of_l1neg (Xarr m c) (Warr m c) t j

/-- An index of the output array is in point `t`'s block iff each coordinate is in the block's range on its axis. -/
theorem mem_blk (t : Fin cfg0.N) (i : S4x64x1024.Idx) :
    i ∈ ((cfg0.win 2).blk t).view.set ↔ ∀ a : Fin 3, win0_2.index t a * S1x16x128.size a ≤ (i a).val ∧ (i a).val < win0_2.index t a * S1x16x128.size a + S1x16x128.size a := by
  show i ∈ ((View.whole main_v22).slice (win0_2.rect t)).set ↔ _
  rw [View.set_slice_whole, Rect.mem_set_unit]
  exact Iff.rfl

/-- The blocks tile the output array: `(n, o, l)` lies in the block of point `32 n + 8 (o / 16) + l / 128`. -/
theorem cover (i : S4x64x1024.Idx) : ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 1024 := (i 2).isLt
  have hN : (i 0).val * 32 + (i 1).val / 16 * 8 + (i 2).val / 128 < cfg0.N := by
    show _ < grid0.N
    rw [N_0]; omega
  have q0 : win0_2.index ⟨_, hN⟩ (0 : Fin 3) = ((i 0).val * 32 + (i 1).val / 16 * 8 + (i 2).val / 128) / 32 := (idx_closed ⟨_, hN⟩).1
  have q1 : win0_2.index ⟨_, hN⟩ (1 : Fin 3) = ((i 0).val * 32 + (i 1).val / 16 * 8 + (i 2).val / 128) / 8 % 4 := (idx_closed ⟨_, hN⟩).2.1
  have q2 : win0_2.index ⟨_, hN⟩ (2 : Fin 3) = ((i 0).val * 32 + (i 1).val / 16 * 8 + (i 2).val / 128) % 8 := (idx_closed ⟨_, hN⟩).2.2
  refine ⟨⟨_, hN⟩, flush0_2 _, ?_⟩
  rw [mem_blk]
  intro a
  match a with
  | ⟨0, _⟩ =>
    show win0_2.index ⟨_, hN⟩ (0 : Fin 3) * 1 ≤ (i 0).val ∧ (i 0).val < win0_2.index ⟨_, hN⟩ (0 : Fin 3) * 1 + 1
    rw [q0]; omega
  | ⟨1, _⟩ =>
    show win0_2.index ⟨_, hN⟩ (1 : Fin 3) * 16 ≤ (i 1).val ∧ (i 1).val < win0_2.index ⟨_, hN⟩ (1 : Fin 3) * 16 + 16
    rw [q1]; omega
  | ⟨2, _⟩ =>
    show win0_2.index ⟨_, hN⟩ (2 : Fin 3) * 128 ≤ (i 2).val ∧ (i 2).val < win0_2.index ⟨_, hN⟩ (2 : Fin 3) * 128 + 128
    rw [q2]; omega

/-- The output array after the run is `l1neg` of the patch array and the filter matrix. -/
theorem final_out (c : Dev nD) : (dats m 0 c).arrAt 2 cfg0.N = l1neg (Xarr m c) (Warr m c) :=
  (dats m 0 c).arrAt_eq_of_cover 2 (l1neg (Xarr m c) (Warr m c)) (fun t _ => flushed_eq m c t) cover

/-! ## The closing reshape -/

/-- The result buffer ends at the reshape of that array to [4, 64, 32, 32]. -/
theorem result_eq (c : Dev nD) :
    (Vend m c main_v23 : S4x64x32x32.Idx → EReal)
      = shapeCast S4x64x32x32 (l1neg (Xarr m c) (Warr m c)) shapeCasts_S4x64x1024_S4x64x32x32 := by
  unfold Vend Pipeline.afterTail₀
  show StableHlo.after hostOps1 _ (Proc.devRef .tc main_v23) = _
  after_results
  exact congrArg (fun z => shapeCast S4x64x32x32 z shapeCasts_S4x64x1024_S4x64x32x32)
    ((Pipeline.withArrays_arr spec0 launch0.win.arr_inj c _ _ 2).trans (final_out m c))

end Cert.KernelIdeal.L1V

end
-- ==== Proof.HostChain.lean ====
/-
  What the region finds in its two input arrays. Both programs build the patch array and the filter matrix by the same
  host lines (zero padding, nine shifted slices, their stack along a new axis, a reshape to [4, 576, 1024]; a reshape of the
  filter to [64, 576]), so the kernel program's arrays at the region's entry are the reference's own stages of the
  argument arrays: the same operations of the same shapes applied to the launch contents.
-/
import proofs.«150992_j36910948942379_1_alg».proof.Proof.FrameIdeal
import proofs.«150992_j36910948942379_1_alg».proof.Proof.Gen.ReferenceIdeal.Read
import Idealize.ShloMosaic.Lib.StableHlo.Run

noncomputable section

namespace Cert.KernelIdeal.L1H

open Cert.KernelIdeal Cert.KernelIdeal.Gen Cert.KernelIdeal.L1
open Idealize.ShloMosaic Idealize.ShloMosaic.TcCoe Idealize.SL.Sem Idealize.ShloMosaic.StableHlo

variable {F : FTy → Type} [FloatOps F]
variable (m : (ℓ : Loc nD τ sig) → Buf (Elt F) ℓ)

/-- The patch array at the region's entry is the reference's patch stage of the image argument. -/
theorem patches_eq (c : Dev nD) :
    (V m c main_v20 : S4x576x1024.Idx → Elt F .f32)
      = Cert.ReferenceIdeal.Read.val_main_v20 (F := F) (m ((c : Thread nD τ).loc main_arg0)) := by
  dsimp only [V, V0]
  simp only [hostOps0, hostOps0_1, hostOps0_2, List.flatten_cons, List.flatten_nil, List.append_nil, List.cons_append,
    List.nil_append]
  after_results
  rfl

/-- The filter matrix at the region's entry is the reference's reshape of the filter argument. -/
theorem filter_eq (c : Dev nD) :
    (V m c main_v21 : S64x576.Idx → Elt F .f32)
      = Cert.ReferenceIdeal.Read.val_main_v21 (F := F) (m ((c : Thread nD τ).loc main_arg1)) := by
  dsimp only [V, V0]
  simp only [hostOps0, hostOps0_1, hostOps0_2, List.flatten_cons, List.flatten_nil, List.append_nil, List.cons_append,
    List.nil_append]
  after_results
  rfl

end Cert.KernelIdeal.L1H

end
-- ==== Proof.RefSide.lean ====
/-
  The reference's result before its closing reshape is the L1-distance function of its own patch array and filter matrix:
  at `(n, o, l)` the host sum over axis 2 of `|W'[0, o, k, 0] - X'[n, 0, k, l]|`, started from zero and then negated, where
  `W'` and `X'` are the filter matrix and the patch array broadcast to [4, 64, 576, 1024] through a unit axis each. Reading
  each broadcast at an index gives `W[o, k]` and `X[n, k, l]`; the sum started from zero is the sum.
-/
import proofs.«150992_j36910948942379_1_alg».proof.Proof.Gen.ReferenceIdeal.Read
import proofs.«150992_j36910948942379_1_alg».proof.Proof.Spec

noncomputable section

namespace Cert.ReferenceIdeal.L1R

open Cert.ReferenceIdeal Cert.ReferenceIdeal.Read Cert.L1Spec
open Idealize.ShloMosaic Idealize.ShloMosaic.TcCoe Idealize.SL.Sem

/-- Through the two broadcasts, term `k` of the sum at `(n, o, l)` reads the filter matrix at `(o, k)`. -/
theorem filter_index (i : S4x64x1024.Idx) (k : Fin 576) :
    idx_main_v22 (idx_main_v24 (idx_main_v28 i k)) = wAt i k :=
  funext fun a => Fin.ext (by match a with | ⟨0, _⟩ => rfl | ⟨1, _⟩ => rfl)

/-- And the patch array at `(n, k, l)`. -/
theorem patch_index (i : S4x64x1024.Idx) (k : Fin 576) :
    idx_main_v23 (idx_main_v25 (idx_main_v28 i k)) = xAt i k :=
  funext fun a => Fin.ext (by match a with | ⟨0, _⟩ => rfl | ⟨1, _⟩ => rfl | ⟨2, _⟩ => rfl)

/-- The reference's negated sum is `l1neg` of its patch array and its filter matrix. -/
theorem negated_sum_eq (x0 : (⟨S4x64x32x32, .f32⟩ : BufTy).Contents (Elt Ideal)) (x1 : (⟨S64x64x3x3, .f32⟩ : BufTy).Contents (Elt Ideal)) :
    val_main_v29 (F := Ideal) x0 x1 = l1neg (val_main_v20 (F := Ideal) x0) (val_main_v21 (F := Ideal) x1) := by
  funext i
  rw [val_main_v29_apply, val_main_v28_apply]
  simp only [val_main_v27_apply, val_main_v26_apply, val_main_v24_apply, val_main_v22_apply, val_main_v25_apply,
    val_main_v23_apply, val_main_cst_apply, Ideal.hostNegf_def, Ideal.hostAbsf_def, Ideal.negf_def, Ideal.ofBits_def,
    zero_word_add, filter_index, patch_index]
  rfl

end Cert.ReferenceIdeal.L1R

end
-- ==== Proof.lean ====
/-
  The L1-distance kernel against its jnp reference: `out[n, o, y, x] = -∑ₖ |W[o, k] - X[n, k, 32 y + x]|`, where `X` is the
  array of 3×3 patches of the zero-padded image (576 = 64 channels × 9 offsets rows, 1024 = 32 × 32 columns) and `W` the filter
  flattened to [64, 576]. Both programs build `X` and `W` by the same host lines. The kernel then computes the sums block by
  block on a 4 × 4 × 8 grid and subtracts each from zero; the reference broadcasts `W` and `X` to [4, 64, 576, 1024],
  subtracts, takes absolute values, sums over axis 2 from zero and negates. Over the extended reals the two agree at every
  index and every input, finite or not: `0 - s = -s` and `0 + s = s` hold for every extended real, and a sum does not
  depend on how it is tiled.
  The five claims:
  · the word-level and the idealized kernel programs run to the end, fault nowhere and leave their arguments unchanged:
    one text at any float instance (Proof/FrameIdeal.lean, laid out again at the other namespace as Proof/FrameBits.lean);
  · the reference does: its generated run with the result dropped;
  · the ideal pass rewrote nothing, so `preserves` is `True`;
  · the results are equal: the witness is the reference's result as a function of the arguments; the kernel program's
    result is the reshape of `l1neg X W` for the arrays the region finds (Proof/KernelValue.lean), those arrays are the
    reference's own patch and filter stages of the arguments (Proof/HostChain.lean), and the reference's negated sum is
    `l1neg` of those stages (Proof/RefSide.lean), so the two results are one term.
-/
import proofs.«150992_j36910948942379_1_alg».proof.Defs
import proofs.«150992_j36910948942379_1_alg».proof.Proof.Gen.Kernel
import proofs.«150992_j36910948942379_1_alg».proof.Proof.Gen.KernelIdeal
import proofs.«150992_j36910948942379_1_alg».proof.Proof.Gen.ReferenceIdeal
import proofs.«150992_j36910948942379_1_alg».proof.Proof.Gen.Pre_finite_inputs
import proofs.«150992_j36910948942379_1_alg».proof.Proof.Gen.ReferenceIdeal.Run
import proofs.«150992_j36910948942379_1_alg».proof.Proof.Gen.ReferenceIdeal.Read
import proofs.«150992_j36910948942379_1_alg».proof.Proof.FrameBits
import proofs.«150992_j36910948942379_1_alg».proof.Proof.FrameIdeal
import proofs.«150992_j36910948942379_1_alg».proof.Proof.KernelValue
import proofs.«150992_j36910948942379_1_alg».proof.Proof.HostChain
import proofs.«150992_j36910948942379_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.L1.frame m ρ

theorem frame_ki : Cert.frame_KernelIdeal := fun m ρ _ => Cert.KernelIdeal.L1.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Algebraic

open Cert.KernelIdeal Cert.KernelIdeal.Gen Cert.KernelIdeal.L1

variable (m : (ℓ : Loc nD τ sig) → Buf (Elt Ideal) ℓ)

/-- The kernel program's result buffer ends at the reference's result as a function of the kernel program's arguments:
    the reshape of `l1neg` of the two arrays the region finds, which are the reference's stages of the arguments, of which
    the reference's negated sum is `l1neg`. -/
theorem result_is_reference (c : Dev nD) :
    (Vend m c main_v23 : S4x64x32x32.Idx → EReal)
      = Cert.ReferenceIdeal.Read.val_main_v30 (F := Ideal) (m ((c : Thread nD τ).loc main_arg0)) (m ((c : Thread nD τ).loc main_arg1)) := by
  rw [Cert.KernelIdeal.L1V.result_eq]
  unfold Cert.KernelIdeal.L1V.Xarr Cert.KernelIdeal.L1V.Warr
  rw [Cert.KernelIdeal.L1H.patches_eq, Cert.KernelIdeal.L1H.filter_eq, ← Cert.ReferenceIdeal.L1R.negated_sum_eq]
  rfl

end Algebraic

theorem algebraic : Cert.algebraic_KernelIdeal_ReferenceIdeal := by
  intro m ρ m' ρ' _ hagree
  refine ⟨fun c => Cert.ReferenceIdeal.Read.val_main_v30 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.L1.run_main m ρ)
    · exact ((h c).2 Cert.KernelIdeal.main_v23 (Pipeline.mem_restRefs_of Cert.KernelIdeal.main_v23 (by decide) (by decide))).trans
        (result_is_reference m c)
    · exact ((h c).2 Cert.KernelIdeal.main_arg0 (Pipeline.mem_restRefs_of Cert.KernelIdeal.main_arg0 (by decide) (by decide))).trans
        ((Cert.KernelIdeal.L1.Vend_of_kept m c Cert.KernelIdeal.main_arg0 (by decide) (by decide)).trans (Cert.KernelIdeal.L1.V_main_arg0 m c))
    · exact ((h c).2 Cert.KernelIdeal.main_arg1 (Pipeline.mem_restRefs_of Cert.KernelIdeal.main_arg1 (by decide) (by decide))).trans
        ((Cert.KernelIdeal.L1.Vend_of_kept m c Cert.KernelIdeal.main_arg1 (by decide) (by decide)).trans (Cert.KernelIdeal.L1.V_main_arg1 m c))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
